-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 3
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  bitsLt_bf16_f32 : FTy.bits .bf16 < FTy.bits .f32
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x1024.size a
  hwx0_1 : ∀ i : grid0.Coords, EltTy.bits .f32 = 32 ∨ (Rect.block (s := S1024x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x1024.size a
  hwx0_2 : ∀ i : grid0.Coords, EltTy.bits .f32 = 32 ∨ (Rect.block (s := S128x1024) S128x128.size (cc0_transform_2 i) (hinb0_2 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S128x1024x1 : Shape := ⟨3, ![128, 1024, 1]⟩
abbrev S1x1024x1024 : Shape := ⟨3, ![1, 1024, 1024]⟩
abbrev S128x1024x1024 : Shape := ⟨3, ![128, 1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1024, .f32⟩
  | .hbm, ⟨3, _⟩ => ⟨S1024x1024, .f32⟩
  | .hbm, ⟨4, _⟩ => ⟨S1024x1024, .f32⟩
  | .hbm, ⟨5, _⟩ => ⟨S128x1024, .f32⟩
  | .hbm, ⟨6, _⟩ => ⟨S128x1024x1, .f32⟩
  | .hbm, ⟨7, _⟩ => ⟨S1024x1024, .f32⟩
  | .hbm, ⟨8, _⟩ => ⟨S1x1024x1024, .f32⟩
  | .hbm, ⟨9, _⟩ => ⟨S128x1024x1024, .f32⟩
  | .hbm, ⟨10, _⟩ => ⟨S128x1024x1024, .f32⟩
  | .hbm, ⟨11, _⟩ => ⟨S128x1024x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S1024x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S128x1024_S128x1024x1_0_1 : S128x1024.BroadcastsInDim S128x1024x1 (![0, 1] : Fin 2 → Fin S128x1024x1.rank)
  bcast_S1024x1024_S1x1024x1024_1_2 : S1024x1024.BroadcastsInDim S1x1024x1024 (![1, 2] : Fin 2 → Fin S1x1024x1024.rank)
  bcast_S128x1024x1_S128x1024x1024_0_1_2 : S128x1024x1.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d1 : S128x1024x1024.ReducesTo [1] S128x1024
  h_S_ : 0 < S_.numel
  bcast_S_S128x1024 : S_.BroadcastsInDim S128x1024 (![] : Fin 0 → Fin S128x1024.rank)
  dot_S128x1024_S1024x1024_S128x1024_1_0_0_1_n_n_wf : DotDims.WF S128x1024 S1024x1024 S128x1024 [1] [0] [0] [1] [] []

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

class Facts : Prop extends Facts₀ where

variable [Facts]
-- ==== Proof.Pieces.lean ====
import proofs.«129374_j21912923144500_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-! What each control case of the body leaves in the three accumulators it carries from one grid point to the
next, and in the output block, as the body's own arithmetic terms of the two input blocks `x0`, `x1` and of what
the accumulators held before (`xs0`, `xs1`, `xs2`). At the first reduction step (case A) the accumulators are
reset, so the terms are taken at the zero block; at the later steps (cases B and C) at the carried contents; at the
last step (case C) the output block is written from the three updated accumulators. Each accumulator is stored
whole, so what is read back after the stores is the last store's value. -/

theorem hz : (![0, 0] : Fin 2 → Nat) = fun _ => 0 := funext fun a => by fin_cases a <;> rfl

/-- First step: the product accumulator is the matmul term over the zero block. -/
theorem acc_out_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i) (x0 x1 : Vec F S128x128 .f32) :
    sout0_A_0 c i arg2 harg2 arg3 harg3 arg4 harg4 arg5 harg5 arg6 harg6 arg7 harg7 hc0 hc1 x0 x1 = k0_pay8 x0 x1 (k0_pay3 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- First step: the absolute-sum accumulator is its matmul term over the zero block. -/
theorem acc_sum_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i) (x0 x1 : Vec F S128x128 .f32) :
    sout0_A_1 c i arg2 harg2 arg3 harg3 arg4 harg4 arg5 harg5 arg6 harg6 arg7 harg7 hc0 hc1 x0 x1 = k0_pay9 x0 x1 (k0_pay4 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- First step: the maximum accumulator is the tile maximum against the zero block. -/
theorem acc_max_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : cond0_0 i) (hc1 : ¬cond0_1 i) (x0 x1 : Vec F S128x128 .f32) :
    sout0_A_2 c i arg2 harg2 arg3 harg3 arg4 harg4 arg5 harg5 arg6 harg6 arg7 harg7 hc0 hc1 x0 x1 = k0_pay1 (k0_pay10 x0 x1 (k0_pay5 (F := F))) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- A middle step: the product accumulator is updated from what it held. -/
theorem acc_out_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i) (x0 x1 xs0 xs1 xs2 : Vec F S128x128 .f32) :
    sout0_B_0 c i arg2 harg2 arg3 harg3 arg4 harg4 arg5 harg5 arg6 harg6 arg7 harg7 hc0 hc1 x0 x1 xs0 xs1 xs2 = k0_pay8 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- A middle step: the absolute-sum accumulator is updated from what it held. -/
theorem acc_sum_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i) (x0 x1 xs0 xs1 xs2 : Vec F S128x128 .f32) :
    sout0_B_1 c i arg2 harg2 arg3 harg3 arg4 harg4 arg5 harg5 arg6 harg6 arg7 harg7 hc0 hc1 x0 x1 xs0 xs1 xs2 = k0_pay9 x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- A middle step: the maximum accumulator is updated from what it held. -/
theorem acc_max_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : ¬cond0_1 i) (x0 x1 xs0 xs1 xs2 : Vec F S128x128 .f32) :
    sout0_B_2 c i arg2 harg2 arg3 harg3 arg4 harg4 arg5 harg5 arg6 harg6 arg7 harg7 hc0 hc1 x0 x1 xs0 xs1 xs2 = k0_pay1 (k0_pay10 x0 x1 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- The last step: the product accumulator is updated from what it held. -/
theorem acc_out_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i) (x0 x1 xs0 xs1 xs2 : Vec F S128x128 .f32) :
    sout0_C_0 c i arg2 harg2 arg3 harg3 arg4 harg4 arg5 harg5 arg6 harg6 arg7 harg7 hc0 hc1 x0 x1 xs0 xs1 xs2 = k0_pay8 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- The last step: the absolute-sum accumulator is updated from what it held. -/
theorem acc_sum_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i) (x0 x1 xs0 xs1 xs2 : Vec F S128x128 .f32) :
    sout0_C_1 c i arg2 harg2 arg3 harg3 arg4 harg4 arg5 harg5 arg6 harg6 arg7 harg7 hc0 hc1 x0 x1 xs0 xs1 xs2 = k0_pay9 x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- The last step: the maximum accumulator is updated from what it held. -/
theorem acc_max_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i) (x0 x1 xs0 xs1 xs2 : Vec F S128x128 .f32) :
    sout0_C_2 c i arg2 harg2 arg3 harg3 arg4 harg4 arg5 harg5 arg6 harg6 arg7 harg7 hc0 hc1 x0 x1 xs0 xs1 xs2 = k0_pay1 (k0_pay10 x0 x1 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

/-- The last step: the output block is the final combination of the three updated accumulators. -/
theorem out_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (hc0 : ¬cond0_0 i) (hc1 : cond0_1 i) (x0 x1 xs0 xs1 xs2 : Vec F S128x128 .f32) :
    out0_C_2 c i arg2 harg2 arg3 harg3 arg4 harg4 arg5 harg5 arg6 harg6 arg7 harg7 hc0 hc1 x0 x1 xs0 xs1 xs2 = k0_pay2 (k0_pay8 x0 x1 xs0) (k0_pay1 (k0_pay10 x0 x1 xs2)) (k0_pay9 x0 x1 xs1) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_cons_unit_zero (S := S128x128) hz]
  simp only [View.readCov_unit_zero (S := S128x128) _ hz, View.readAt_eq_ld, harg2.read_unread, harg3.read_unread,
    harg5.read_unread, harg6.read_unread, harg7.read_unread, View.ld_unit_zero (S := S128x128) hz]

end Cert.KernelIdeal.Pieces

end
-- ==== Proof.Spec.lean ====
/-
  The specification. For x : [128, 1024] and W : [1024, 1024] over the extended reals the result at (b, j) is

      ∑ₖ x[b,k] · W[j,k]  +  δ · ( maxₖ |x[b,k]| · |W[j,k]|  −  ∑ₖ |x[b,k]| · |W[j,k]| ),

  k over the 1024 columns, δ the f32 word nearest 0.01, the maximum taken from −∞, |a| = max a (−a).
  Beside it the two laws that join a tiled evaluation (eight tiles of 128 columns, accumulated left to right)
  to the whole one: a sum over the first 128·(n+1) columns is the sum over the first 128·n plus the tile's sum
  (addition of extended reals is commutative and associative: no finiteness is used), and a running maximum
  started at 0 is the whole maximum because every product of absolute values is ≥ 0. The running maximum is
  carried by its universal property: `acc ≤ c ↔ 0 ≤ c ∧ every term so far ≤ c`.
-/
import Idealize.ShloMosaic.PureOps.Ideal
import Idealize.ShloMosaic.PureOps.Ideal.Laws
import Idealize.ShloMosaic.Lib.ValueIdx
import Mathlib.Algebra.BigOperators.Fin
import Mathlib.Data.Finset.Fold

noncomputable section

namespace Cert.Spec

open Idealize.ShloMosaic Idealize.ShloMosaic.ValueIdx

/-- The initial value of both maximum reductions, the f32 word of −∞, is the bottom of the extended reals. -/
theorem negInf_eq_bot : Ideal.ofBits .f32 0xFF800000#32 = (⊥ : EReal) := by
  simp [Ideal.ofBits, Ideal.ieee]

/-- The absolute value of an extended real: the larger of a and −a. -/
def eabs (a : EReal) : EReal := max a (-a)

theorem eabs_nonneg (a : EReal) : 0 ≤ eabs a := by
  unfold eabs
  rcases le_total 0 a with h | h
  · exact le_max_of_le_left h
  · refine le_max_of_le_right ?_
    have := EReal.neg_le_neg_iff.mpr h
    simpa using this

/-- A product of two absolute values is nonnegative (also at the infinities: 0 · ∞ = 0). -/
theorem eabs_mul_eabs_nonneg (a b : EReal) : 0 ≤ eabs a * eabs b :=
  mul_nonneg (eabs_nonneg a) (eabs_nonneg b)

/-- Row b of x as a function of a natural-number column, zero off the array. -/
def xN (X : (⟨2, ![128, 1024]⟩ : Shape).Idx → EReal) (b i : ℕ) : EReal :=
  if h : b < 128 ∧ i < 1024 then X (ix2 ⟨b, h.1⟩ ⟨i, h.2⟩) else 0

/-- Row j of W as a function of a natural-number column, zero off the array. -/
def wN (W : (⟨2, ![1024, 1024]⟩ : Shape).Idx → EReal) (j i : ℕ) : EReal :=
  if h : j < 1024 ∧ i < 1024 then W (ix2 ⟨j, h.1⟩ ⟨i, h.2⟩) else 0

theorem xN_of_lt (X : (⟨2, ![128, 1024]⟩ : Shape).Idx → EReal) (b : Fin 128) (i : Fin 1024) :
    xN X b.val i.val = X (ix2 b i) := by
  unfold xN; rw [dif_pos ⟨b.isLt, i.isLt⟩]

theorem wN_of_lt (W : (⟨2, ![1024, 1024]⟩ : Shape).Idx → EReal) (j : Fin 1024) (i : Fin 1024) :
    wN W j.val i.val = W (ix2 j i) := by
  unfold wN; rw [dif_pos ⟨j.isLt, i.isLt⟩]

/-- The result, index by index. -/
def G (X : (⟨2, ![128, 1024]⟩ : Shape).Idx → EReal) (W : (⟨2, ![1024, 1024]⟩ : Shape).Idx → EReal) :
    (⟨2, ![128, 1024]⟩ : Shape).Idx → EReal := fun i =>
  (∑ k : Fin 1024, X (ix2 (i 0) k) * W (ix2 (i 1) k))
    + Ideal.ofBits .f32 0x3C23D70A#32 *
      ((Finset.univ.fold max (Ideal.ofBits .f32 0xFF800000#32)
          (fun k : Fin 1024 => eabs (X (ix2 (i 0) k)) * eabs (W (ix2 (i 1) k))))
        - ∑ k : Fin 1024, eabs (X (ix2 (i 0) k)) * eabs (W (ix2 (i 1) k)))

/-! ## Sums, tile by tile -/

/-- The sum over the first 128·n columns plus tile n's sum is the sum over the first 128·(n+1). -/
theorem sum_tile (f : ℕ → EReal) (n : ℕ) :
    (∑ i ∈ Finset.range (128 * n), f i) + ∑ q : Fin 128, f (128 * n + q.val)
      = ∑ i ∈ Finset.range (128 * (n + 1)), f i := by
  have e : 128 * (n + 1) = 128 * n + 128 := by omega
  rw [e, Finset.sum_range_add, Fin.sum_univ_eq_sum_range (fun q => f (128 * n + q)) 128]

/-- The first tile, accumulated into zero. -/
theorem sum_tile_zero (f : ℕ → EReal) :
    (0 : EReal) + ∑ q : Fin 128, f (128 * 0 + q.val) = ∑ i ∈ Finset.range (128 * (0 + 1)), f i := by
  have := sum_tile f 0
  simpa using this

/-- All 1024 columns, as the sum over the array's own column index. -/
theorem sum_range_eq (f : ℕ → EReal) : ∑ i ∈ Finset.range 1024, f i = ∑ k : Fin 1024, f k.val :=
  (Fin.sum_univ_eq_sum_range f 1024).symm

/-! ## The running maximum, by its universal property -/

/-- `acc` is the maximum of 0 and the first N terms of g. -/
def MaxUpTo (g : ℕ → EReal) (N : ℕ) (acc : EReal) : Prop :=
  ∀ c : EReal, acc ≤ c ↔ 0 ≤ c ∧ ∀ i < N, g i ≤ c

theorem maxUpTo_zero (g : ℕ → EReal) : MaxUpTo g 0 0 := fun c =>
  ⟨fun h => ⟨h, fun i hi => absurd hi (Nat.not_lt_zero i)⟩, fun h => h.1⟩

/-- One more tile: the maximum so far against the tile's own maximum (taken from −∞). -/
theorem maxUpTo_tile (g : ℕ → EReal) (n : ℕ) (acc : EReal) (h : MaxUpTo g (128 * n) acc) :
    MaxUpTo g (128 * (n + 1))
      (max acc (Finset.univ.fold max (Ideal.ofBits .f32 0xFF800000#32) (fun q : Fin 128 => g (128 * n + q.val)))) := by
  intro c
  rw [max_le_iff, Finset.fold_max_le, h c, negInf_eq_bot]
  constructor
  · rintro ⟨⟨h0, h1⟩, -, h2⟩
    refine ⟨h0, fun i hi => ?_⟩
    by_cases hlt : i < 128 * n
    · exact h1 i hlt
    · have h3 := h2 ⟨i - 128 * n, by omega⟩ (Finset.mem_univ _)
      have e : 128 * n + (i - 128 * n) = i := by omega
      simpa [e] using h3
  · rintro ⟨h0, h1⟩
    exact ⟨⟨h0, fun i hi => h1 i (by omega)⟩, bot_le, fun q _ => h1 _ (by have := q.isLt; omega)⟩

/-- After all eight tiles the running maximum is the maximum over all 1024 columns taken from −∞, when the
    first term is nonnegative. -/
theorem maxUpTo_eq_fold (g : ℕ → EReal) (acc : EReal) (h : MaxUpTo g 1024 acc) (h0 : 0 ≤ g 0) :
    acc = Finset.univ.fold max (Ideal.ofBits .f32 0xFF800000#32) (fun k : Fin 1024 => g k.val) := by
  refine eq_of_forall_ge_iff fun c => ?_
  rw [h c, Finset.fold_max_le, negInf_eq_bot]
  constructor
  · rintro ⟨-, h1⟩
    exact ⟨bot_le, fun k _ => h1 k.val k.isLt⟩
  · rintro ⟨-, h1⟩
    refine ⟨h0.trans (h1 ⟨0, by decide⟩ (Finset.mem_univ _)), fun i hi => h1 ⟨i, hi⟩ (Finset.mem_univ _)⟩

end Cert.Spec

end
-- ==== Proof.PayloadAt.lean ====
/-
  The body's arithmetic read at one element (p, r) of a 128 × 128 block, over the extended reals. With x the block of
  x's rows (rows b, 128 columns of the reduction axis) and w the block of W's rows (rows j, the same 128 columns):

    the product update      acc[p,r] + ∑_q x[p,q] · w[r,q]         (the matmul contracts x's columns with the
                                                                    transposed block's rows; the bf16 casts are
                                                                    the identity on extended reals),
    the absolute-sum update acc[p,r] + ∑_q |x[p,q]| · |w[r,q]|,
    the maximum update      max acc[p,r] (max_q |x[p,q]| · |w[r,q]|), the inner maximum from −∞ over the middle
                                                                    axis of the broadcast product [p, q, r],
    the final combination   out[p,r] + δ · (mx[p,r] − sm[p,r]),
    and the reset blocks    0.
-/
import proofs.«129374_j21912923144500_1_alg».proof.Proof.Gen.KernelIdeal.Skeleton
import proofs.«129374_j21912923144500_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx Cert.Spec

/-! ## The tile product -/

theorem lhs_axis0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_axis1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_axis0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_axis1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The tile's matrix product into a zero accumulator, against the transposed second block: at (p, r) the sum over
    the 128 shared columns q of a[p,q] · b[r,q]. -/
theorem tile_product {φ₁ φ₂ : FTy} (a : FVec Ideal S128x128 φ₁) (b : FVec Ideal S128x128 φ₂) (p r : Fin 128) :
    matmul dot_S128x128_S128x128_S128x128_1_0_0_1_n_n none a (transpose S128x128 [1, 0] b transposes_S128x128_p1_0_S128x128)
        (constant S128x128 .f32 0x00000000#32) (ix2 p r)
      = ∑ q : Fin 128, a (ix2 p q) * b (ix2 r q) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 p r) ((ValueIdx.contrEquiv1 dot_S128x128_S128x128_S128x128_1_0_0_1_n_n 128 rfl rfl).symm k) = ix2 p k := funext fun c => Fin.ext (by
    match c with
    | ⟨0, _⟩ => exact lhs_axis0 _ _
    | ⟨1, _⟩ => exact (lhs_axis1 _ _).trans hk)
  have er : dot_S128x128_S128x128_S128x128_1_0_0_1_n_n.rhsIdx (ix2 p r) ((ValueIdx.contrEquiv1 dot_S128x128_S128x128_S128x128_1_0_0_1_n_n 128 rfl rfl).symm k) = ix2 k r := funext fun c => Fin.ext (by
    match c with
    | ⟨0, _⟩ => exact (rhs_axis0 _ _).trans hk
    | ⟨1, _⟩ => exact rhs_axis1 _ _)
  rw [el, er, transpose_ix2_apply]

/-! ## The two sum accumulators -/

theorem product_update (x w acc : Vec Ideal S128x128 .f32) (p r : Fin 128) :
    k0_pay8 (F := Ideal) x w acc (ix2 p r) = acc (ix2 p r) + ∑ q : Fin 128, x (ix2 p q) * w (ix2 r q) := by
  unfold k0_pay8
  rw [shapeCast_self, addf_apply, tile_product]
  rfl

theorem abs_sum_update (x w acc : Vec Ideal S128x128 .f32) (p r : Fin 128) :
    k0_pay9 (F := Ideal) x w acc (ix2 p r)
      = acc (ix2 p r) + ∑ q : Fin 128, eabs (x (ix2 p q)) * eabs (w (ix2 r q)) := by
  unfold k0_pay9 k0_pay6 k0_pay7
  rw [shapeCast_self, addf_apply, tile_product]
  rfl

/-! ## The maximum accumulator -/

/-- Over result index (p, r), the index of the broadcast product with middle coordinate q. -/
theorem lift_eq (p r q : Fin 128) :
    reduces_S128x128x128_S128x128.lift (ix2 p r) q = ix3 p q r :=
  funext fun c => Fin.ext (by
    match c with
    | ⟨0, _⟩ => rfl
    | ⟨1, _⟩ => rfl
    | ⟨2, _⟩ => rfl)

/-- The first factor of the broadcast product, |x| with a trailing unit axis spread along r. -/
theorem left_factor (x : Vec Ideal S128x128 .f32) (p q r : Fin 128) :
    broadcastTo S128x128x128 (shapeCast S128x128x1 (absf (F := Ideal) (φ := .f32) x) shapeCasts_S128x128_S128x128x1) broadcasts_S128x128x1_S128x128x128
        (ix3 p q r) = eabs (x (ix2 p q)) := by
  refine (broadcastTo_apply _ broadcasts_S128x128x1_S128x128x128 (ix3 p q r) (ix3 p q (0 : Fin 1)) fun c => ?_).trans ?_
  · match c with
    | ⟨0, _⟩ => show p.val = if (128 : Nat) = 1 then 0 else p.val; rw [if_neg (by decide)]
    | ⟨1, _⟩ => show q.val = if (128 : Nat) = 1 then 0 else q.val; rw [if_neg (by decide)]
    | ⟨2, _⟩ => show 0 = if (1 : Nat) = 1 then 0 else r.val; rw [if_pos rfl]
  · refine (shapeCast_apply _ shapeCasts_S128x128_S128x128x1 (ix3 p q (0 : Fin 1)) (ix2 p q) ?_).trans rfl
    rw [Shape.rowMajor_val_two, Shape.rowMajor_val_three]
    show p.val * 128 + q.val = (p.val * 128 + q.val) * 1 + 0
    omega

/-- The second factor, |w| transposed with a leading unit axis spread along p. -/
theorem right_factor (w : Vec Ideal S128x128 .f32) (p q r : Fin 128) :
    broadcastTo S128x128x128
        (shapeCast S1x128x128 (transpose S128x128 [1, 0] (absf (F := Ideal) (φ := .f32) w) transposes_S128x128_p1_0_S128x128) shapeCasts_S128x128_S1x128x128)
        broadcasts_S1x128x128_S128x128x128 (ix3 p q r) = eabs (w (ix2 r q)) := by
  refine (broadcastTo_apply _ broadcasts_S1x128x128_S128x128x128 (ix3 p q r) (ix3 (0 : Fin 1) q r) fun c => ?_).trans ?_
  · match c with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show r.val = if (128 : Nat) = 1 then 0 else r.val; rw [if_neg (by decide)]
  · rw [shapeCast_ab_1ab_apply, transpose_ix2_apply]
    rfl

/-- The tile's maximum: over the middle axis of the broadcast product, from −∞. -/
theorem tile_max (x w : Vec Ideal S128x128 .f32) (p r : Fin 128) (hφ : FKind.Formats .f32)
    (hacc : (0xFF800000#32 : BitVec 32) = FKind.maximumf.neutral .f32 hφ) :
    multiReduction .maximumf [1] S128x128
        (mulf
          (broadcastTo S128x128x128 (shapeCast S128x128x1 (absf (F := Ideal) (φ := .f32) x) shapeCasts_S128x128_S128x128x1) broadcasts_S128x128x1_S128x128x128)
          (broadcastTo S128x128x128
            (shapeCast S1x128x128 (transpose S128x128 [1, 0] (absf (F := Ideal) (φ := .f32) w) transposes_S128x128_p1_0_S128x128) shapeCasts_S128x128_S1x128x128)
            broadcasts_S1x128x128_S128x128x128))
        0xFF800000#32 reduces_S128x128x128_S128x128 hφ hacc (ix2 p r)
      = Finset.univ.fold max (Ideal.ofBits .f32 0xFF800000#32) (fun q : Fin 128 => eabs (x (ix2 p q)) * eabs (w (ix2 r q))) := by
  refine (Ideal.multiReduction_maximumf_single _ _ reduces_S128x128x128_S128x128 hφ hacc (ix2 p r)).trans ?_
  show Finset.fold max (Ideal.ofBits .f32 0xFF800000#32)
      (fun q : Fin 128 => mulf (F := Ideal) (φ := .f32)
        (broadcastTo S128x128x128 (shapeCast S128x128x1 (absf (F := Ideal) (φ := .f32) x) shapeCasts_S128x128_S128x128x1) broadcasts_S128x128x1_S128x128x128)
        (broadcastTo S128x128x128
          (shapeCast S1x128x128 (transpose S128x128 [1, 0] (absf (F := Ideal) (φ := .f32) w) transposes_S128x128_p1_0_S128x128) shapeCasts_S128x128_S1x128x128)
          broadcasts_S1x128x128_S128x128x128)
        (reduces_S128x128x128_S128x128.lift (ix2 p r) q))
      (Finset.univ : Finset (Fin 128)) = _
  refine congrArg (fun f => Finset.fold max (Ideal.ofBits .f32 0xFF800000#32) f (Finset.univ : Finset (Fin 128))) (funext fun q => ?_)
  rw [lift_eq p r q, mulf_apply, left_factor, right_factor]

theorem max_update (x w acc : Vec Ideal S128x128 .f32) (p r : Fin 128) :
    k0_pay1 (k0_pay10 (F := Ideal) x w acc) (ix2 p r)
      = max (acc (ix2 p r))
          (Finset.univ.fold max (Ideal.ofBits .f32 0xFF800000#32) (fun q : Fin 128 => eabs (x (ix2 p q)) * eabs (w (ix2 r q)))) := by
  unfold k0_pay1 k0_pay10 k0_pay6 k0_pay7
  rw [shapeCast_self, maximumf_apply]
  exact congrArg (max (acc (ix2 p r))) (tile_max x w p r _ _)

/-! ## The final combination and the reset blocks -/

theorem combine (o mx sm : Vec Ideal S128x128 .f32) (p r : Fin 128) :
    k0_pay2 (F := Ideal) o mx sm (ix2 p r)
      = o (ix2 p r) + Ideal.ofBits .f32 0x3C23D70A#32 * (mx (ix2 p r) - sm (ix2 p r)) := rfl

theorem reset_out (i : S128x128.Idx) : k0_pay3 (F := Ideal) i = 0 := by
  unfold k0_pay3; rw [shapeCast_self]; exact Ideal.ofBits_zero_f32
theorem reset_sum (i : S128x128.Idx) : k0_pay4 (F := Ideal) i = 0 := by
  unfold k0_pay4; rw [shapeCast_self]; exact Ideal.ofBits_zero_f32
theorem reset_max (i : S128x128.Idx) : k0_pay5 (F := Ideal) i = 0 := by
  unfold k0_pay5; rw [shapeCast_self]; exact Ideal.ofBits_zero_f32

end Cert.KernelIdeal.PayloadAt

end
-- ==== Proof.Accumulate.lean ====
/-
  The three accumulators after every grid point, and the output block at the last reduction step.

  The grid is 8 × 8, point t = 8·j + k (j the output tile, k the reduction step, k fastest). At point t the body reads
  x's block (all 128 rows, columns 128·k … 128·k + 127) and W's block (rows 128·j …, the same columns). The invariant
  after point t, at element (p, r) of the accumulators, with column range N = 128·(k + 1) and W-row 128·j + r:

      the product accumulator      =  ∑_{i < N} x[p,i] · W[128·j + r, i]
      the absolute-sum accumulator =  ∑_{i < N} |x[p,i]| · |W[128·j + r, i]|
      the maximum accumulator      is the maximum of 0 and those N products of absolute values.

  It holds at k = 0 because the accumulators are reset to zero there, and passes from k − 1 to k by one tile of each
  law of the specification. At k = 7 the range is all 1024 columns and the output block is the final combination.
-/
import proofs.«129374_j21912923144500_1_alg».proof.Proof.Gen.KernelIdeal.Value
import proofs.«129374_j21912923144500_1_alg».proof.Proof.Pieces
import proofs.«129374_j21912923144500_1_alg».proof.Proof.PayloadAt
import proofs.«129374_j21912923144500_1_alg».proof.Proof.Spec

set_option maxRecDepth 16384

noncomputable section

namespace Cert.KernelIdeal.Accumulate

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ)

/-- The two input blocks at a point, and the two argument arrays, at their literal types. -/
abbrev xblk (c : Dev nD) (t : Fin cfg0.N) : Vec Ideal S128x128 .f32 := iblk m c 0 t
abbrev wblk (c : Dev nD) (t : Fin cfg0.N) : Vec Ideal S128x128 .f32 := iblk m c 1 t
abbrev xarr (c : Dev nD) : Vec Ideal S128x1024 .f32 := V m c main_arg0
abbrev warr (c : Dev nD) : Vec Ideal S1024x1024 .f32 := V m c main_arg1

/-- What the point before left in the output buffer and the three accumulators. -/
abbrev prev (c : Dev nD) (t : Fin cfg0.N) : Vec Ideal S128x128 .f32 × Vec Ideal S128x128 .f32 × Vec Ideal S128x128 .f32 × Vec Ideal S128x128 .f32 :=
  outsAt0 m c (t.val - 1) (Nat.lt_of_le_of_lt (Nat.sub_le _ _) t.isLt)

/-- The block indices of the three windows at point t = 8·j + k: x's block (0, k), W's block (j, k), the output's (0, j). -/
theorem idx_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8 :=
  (by decide +kernel : ∀ t : Fin grid0.N, _)

/-- x's block at point t reads row p, column 128·k + q of x. -/
theorem xblk_apply (c : Dev nD) (t : Fin cfg0.N) (p q : Fin 128) :
    xblk m c t (ix2 p q) = xN (xarr m c) p.val (128 * (t.val % 8) + q.val) := by
  obtain ⟨e0, e1, -, -, -, -⟩ := idx_facts t
  have hq : 128 * (t.val % 8) + q.val < 1024 := by have := q.isLt; omega
  have hx : xN (xarr m c) p.val (128 * (t.val % 8) + q.val) = xarr m c (ix2 p ⟨128 * (t.val % 8) + q.val, hq⟩) := by
    unfold xN; rw [dif_pos ⟨p.isLt, hq⟩]
  rw [hx]
  show xarr m c (((cfg0.win 0).blk t).view.emb (ix2 p q)) = xarr m c _
  refine congrArg (xarr m c) (funext fun a => Fin.ext ?_)
  match a with
  | ⟨0, _⟩ => show win0_0.index t (0 : Fin 2) * 128 + 1 * p.val = p.val; omega
  | ⟨1, _⟩ => show win0_0.index t (1 : Fin 2) * 128 + 1 * q.val = 128 * (t.val % 8) + q.val; omega

/-- W's block at point t reads row 128·j + r, column 128·k + q of W. -/
theorem wblk_apply (c : Dev nD) (t : Fin cfg0.N) (r q : Fin 128) :
    wblk m c t (ix2 r q) = wN (warr m c) (128 * (t.val / 8) + r.val) (128 * (t.val % 8) + q.val) := by
  obtain ⟨-, -, e2, e3, -, -⟩ := idx_facts t
  have hN : t.val < 64 := lt_of_lt_of_eq t.isLt N_0
  have hr : 128 * (t.val / 8) + r.val < 1024 := by have := r.isLt; omega
  have hq : 128 * (t.val % 8) + q.val < 1024 := by have := q.isLt; omega
  have hw : wN (warr m c) (128 * (t.val / 8) + r.val) (128 * (t.val % 8) + q.val)
      = warr m c (ix2 ⟨128 * (t.val / 8) + r.val, hr⟩ ⟨128 * (t.val % 8) + q.val, hq⟩) := by
    unfold wN; rw [dif_pos ⟨hr, hq⟩]
  rw [hw]
  show warr m c (((cfg0.win 1).blk t).view.emb (ix2 r q)) = warr m c _
  refine congrArg (warr m c) (funext fun a => Fin.ext ?_)
  match a with
  | ⟨0, _⟩ => show win0_1.index t (0 : Fin 2) * 128 + 1 * r.val = 128 * (t.val / 8) + r.val; omega
  | ⟨1, _⟩ => show win0_1.index t (1 : Fin 2) * 128 + 1 * q.val = 128 * (t.val % 8) + q.val; omega

/-! ## The invariant -/

/-- The product of x[p, i] and W[j, i], and of their absolute values, as functions of the column i. -/
def prodTerm (c : Dev nD) (p : Fin 128) (j i : ℕ) : EReal := xN (xarr m c) p.val i * wN (warr m c) j i
def absTerm (c : Dev nD) (p : Fin 128) (j i : ℕ) : EReal := eabs (xN (xarr m c) p.val i) * eabs (wN (warr m c) j i)

/-- The three accumulators hold the partial results over the first 128·(n % 8 + 1) columns, for output tile n / 8. -/
def Inv (c : Dev nD) (n : ℕ) (s0 s1 s2 : Vec Ideal S128x128 .f32) : Prop := ∀ p r : Fin 128,
  s0 (ix2 p r) = ∑ i ∈ Finset.range (128 * (n % 8 + 1)), prodTerm m c p (128 * (n / 8) + r.val) i
  ∧ s1 (ix2 p r) = ∑ i ∈ Finset.range (128 * (n % 8 + 1)), absTerm m c p (128 * (n / 8) + r.val) i
  ∧ MaxUpTo (absTerm m c p (128 * (n / 8) + r.val)) (128 * (n % 8 + 1)) (s2 (ix2 p r))

/-- The first reduction step: from the zero blocks. -/
theorem first_tile (c : Dev nD) (t : Fin cfg0.N) (h0 : t.val % 8 = 0) :
    Inv m c t.val (k0_pay8 (xblk m c t) (wblk m c t) (k0_pay3 (F := Ideal)))
      (k0_pay9 (xblk m c t) (wblk m c t) (k0_pay4 (F := Ideal)))
      (k0_pay1 (k0_pay10 (xblk m c t) (wblk m c t) (k0_pay5 (F := Ideal)))) := by
  intro p r
  refine ⟨?_, ?_, ?_⟩
  · rw [PayloadAt.product_update, PayloadAt.reset_out]
    simp only [xblk_apply, wblk_apply]
    rw [h0]
    exact sum_tile_zero (prodTerm m c p (128 * (t.val / 8) + r.val))
  · rw [PayloadAt.abs_sum_update, PayloadAt.reset_sum]
    simp only [xblk_apply, wblk_apply]
    rw [h0]
    exact sum_tile_zero (absTerm m c p (128 * (t.val / 8) + r.val))
  · rw [PayloadAt.max_update, PayloadAt.reset_max]
    simp only [xblk_apply, wblk_apply]
    rw [h0]
    exact maxUpTo_tile (absTerm m c p (128 * (t.val / 8) + r.val)) 0 0 (maxUpTo_zero _)

/-- A later reduction step: from what the step before left. -/
theorem next_tile (c : Dev nD) (t : Fin cfg0.N) (h0 : ¬t.val % 8 = 0) (s0 s1 s2 : Vec Ideal S128x128 .f32)
    (h : Inv m c (t.val - 1) s0 s1 s2) :
    Inv m c t.val (k0_pay8 (xblk m c t) (wblk m c t) s0) (k0_pay9 (xblk m c t) (wblk m c t) s1)
      (k0_pay1 (k0_pay10 (xblk m c t) (wblk m c t) s2)) := by
  intro p r
  obtain ⟨a0, a1, a2⟩ := h p r
  have e1 : (t.val - 1) / 8 = t.val / 8 := by omega
  have e2 : (t.val - 1) % 8 + 1 = t.val % 8 := by omega
  rw [e1, e2] at a0 a1 a2
  refine ⟨?_, ?_, ?_⟩
  · rw [PayloadAt.product_update, a0]
    simp only [xblk_apply, wblk_apply]
    exact sum_tile (prodTerm m c p (128 * (t.val / 8) + r.val)) (t.val % 8)
  · rw [PayloadAt.abs_sum_update, a1]
    simp only [xblk_apply, wblk_apply]
    exact sum_tile (absTerm m c p (128 * (t.val / 8) + r.val)) (t.val % 8)
  · rw [PayloadAt.max_update]
    simp only [xblk_apply, wblk_apply]
    exact maxUpTo_tile (absTerm m c p (128 * (t.val / 8) + r.val)) (t.val % 8) _ a2

/-! ## The accumulators point by point, as the body's terms of the blocks -/

theorem out_acc_A (c : Dev nD) (t : Fin cfg0.N) (h0 : t.val % 8 = 0) (h1 : ¬t.val % 8 = 7) :
    (outsAt0 m c t.val t.isLt).2.1 = k0_pay8 (xblk m c t) (wblk m c t) (k0_pay3 (F := Ideal)) := by
  rw [outsAt0_A m c t h0 h1]
  dsimp only
  exact Pieces.acc_out_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

theorem sum_acc_A (c : Dev nD) (t : Fin cfg0.N) (h0 : t.val % 8 = 0) (h1 : ¬t.val % 8 = 7) :
    (outsAt0 m c t.val t.isLt).2.2.1 = k0_pay9 (xblk m c t) (wblk m c t) (k0_pay4 (F := Ideal)) := by
  rw [outsAt0_A m c t h0 h1]
  dsimp only
  exact Pieces.acc_sum_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

theorem max_acc_A (c : Dev nD) (t : Fin cfg0.N) (h0 : t.val % 8 = 0) (h1 : ¬t.val % 8 = 7) :
    (outsAt0 m c t.val t.isLt).2.2.2 = k0_pay1 (k0_pay10 (xblk m c t) (wblk m c t) (k0_pay5 (F := Ideal))) := by
  rw [outsAt0_A m c t h0 h1]
  dsimp only
  exact Pieces.acc_max_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

theorem out_acc_B (c : Dev nD) (t : Fin cfg0.N) (h0 : ¬t.val % 8 = 0) (h1 : ¬t.val % 8 = 7) :
    (outsAt0 m c t.val t.isLt).2.1 = k0_pay8 (xblk m c t) (wblk m c t) (prev m c t).2.1 := by
  rw [outsAt0_B m c t h0 h1]
  dsimp only
  exact Pieces.acc_out_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.1 (prev m c t).2.2.1 (prev m c t).2.2.2

theorem sum_acc_B (c : Dev nD) (t : Fin cfg0.N) (h0 : ¬t.val % 8 = 0) (h1 : ¬t.val % 8 = 7) :
    (outsAt0 m c t.val t.isLt).2.2.1 = k0_pay9 (xblk m c t) (wblk m c t) (prev m c t).2.2.1 := by
  rw [outsAt0_B m c t h0 h1]
  dsimp only
  exact Pieces.acc_sum_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.1 (prev m c t).2.2.1 (prev m c t).2.2.2

theorem max_acc_B (c : Dev nD) (t : Fin cfg0.N) (h0 : ¬t.val % 8 = 0) (h1 : ¬t.val % 8 = 7) :
    (outsAt0 m c t.val t.isLt).2.2.2 = k0_pay1 (k0_pay10 (xblk m c t) (wblk m c t) (prev m c t).2.2.2) := by
  rw [outsAt0_B m c t h0 h1]
  dsimp only
  exact Pieces.acc_max_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.1 (prev m c t).2.2.1 (prev m c t).2.2.2

theorem out_acc_C (c : Dev nD) (t : Fin cfg0.N) (h0 : ¬t.val % 8 = 0) (h1 : t.val % 8 = 7) :
    (outsAt0 m c t.val t.isLt).2.1 = k0_pay8 (xblk m c t) (wblk m c t) (prev m c t).2.1 := by
  rw [outsAt0_C m c t h0 h1]
  dsimp only
  exact Pieces.acc_out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2

theorem sum_acc_C (c : Dev nD) (t : Fin cfg0.N) (h0 : ¬t.val % 8 = 0) (h1 : t.val % 8 = 7) :
    (outsAt0 m c t.val t.isLt).2.2.1 = k0_pay9 (xblk m c t) (wblk m c t) (prev m c t).2.2.1 := by
  rw [outsAt0_C m c t h0 h1]
  dsimp only
  exact Pieces.acc_sum_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2

theorem max_acc_C (c : Dev nD) (t : Fin cfg0.N) (h0 : ¬t.val % 8 = 0) (h1 : t.val % 8 = 7) :
    (outsAt0 m c t.val t.isLt).2.2.2 = k0_pay1 (k0_pay10 (xblk m c t) (wblk m c t) (prev m c t).2.2.2) := by
  rw [outsAt0_C m c t h0 h1]
  dsimp only
  exact Pieces.acc_max_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2

theorem out_block_C (c : Dev nD) (t : Fin cfg0.N) (h0 : ¬t.val % 8 = 0) (h1 : t.val % 8 = 7) :
    (outsAt0 m c t.val t.isLt).1 = k0_pay2 (k0_pay8 (xblk m c t) (wblk m c t) (prev m c t).2.1) (k0_pay1 (k0_pay10 (xblk m c t) (wblk m c t) (prev m c t).2.2.2)) (k0_pay9 (xblk m c t) (wblk m c t) (prev m c t).2.2.1) := by
  rw [outsAt0_C m c t h0 h1]
  dsimp only
  exact Pieces.out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2

/-! ## The invariant holds after every point -/

theorem acc_inv (c : Dev nD) : ∀ (n : ℕ) (t : Fin cfg0.N), t.val = n →
    Inv m c t.val (outsAt0 m c t.val t.isLt).2.1 (outsAt0 m c t.val t.isLt).2.2.1 (outsAt0 m c t.val t.isLt).2.2.2 := by
  intro n
  induction n using Nat.strong_induction_on with
  | _ n ih =>
    intro t ht
    have hN : t.val < 64 := lt_of_lt_of_eq t.isLt N_0
    by_cases h0 : t.val % 8 = 0
    · have h1 : ¬t.val % 8 = 7 := by omega
      rw [out_acc_A m c t h0 h1, sum_acc_A m c t h0 h1, max_acc_A m c t h0 h1]
      exact first_tile m c t h0
    · have ihp := ih (t.val - 1) (by omega) ⟨t.val - 1, Nat.lt_of_le_of_lt (Nat.sub_le _ _) t.isLt⟩ rfl
      by_cases h1 : t.val % 8 = 7
      · rw [out_acc_C m c t h0 h1, sum_acc_C m c t h0 h1, max_acc_C m c t h0 h1]
        exact next_tile m c t h0 _ _ _ ihp
      · rw [out_acc_B m c t h0 h1, sum_acc_B m c t h0 h1, max_acc_B m c t h0 h1]
        exact next_tile m c t h0 _ _ _ ihp

/-! ## The output block at the last reduction step -/

/-- At a point with k = 7 the output block at (p, r) is the specification at row p, column 128·j + r. -/
theorem block_value (c : Dev nD) (t : Fin cfg0.N) (h1 : t.val % 8 = 7) (p r : Fin 128)
    (hj : 128 * (t.val / 8) + r.val < 1024) :
    (outsAt0 m c t.val t.isLt).1 (ix2 p r) = G (xarr m c) (warr m c) (ix2 p ⟨128 * (t.val / 8) + r.val, hj⟩) := by
  have h0 : ¬t.val % 8 = 0 := by omega
  obtain ⟨a0, a1, a2⟩ := acc_inv m c t.val t rfl p r
  rw [out_acc_C m c t h0 h1] at a0
  rw [sum_acc_C m c t h0 h1] at a1
  rw [max_acc_C m c t h0 h1] at a2
  have e8 : 128 * (t.val % 8 + 1) = 1024 := by omega
  rw [e8] at a0 a1 a2
  have a3 := maxUpTo_eq_fold _ _ a2 (eabs_mul_eabs_nonneg _ _)
  rw [out_block_C m c t h0 h1, PayloadAt.combine, a0, a1, a3, sum_range_eq, sum_range_eq]
  have ep : ∀ k : Fin 1024, prodTerm m c p (128 * (t.val / 8) + r.val) k.val
      = xarr m c (ix2 p k) * warr m c (ix2 ⟨128 * (t.val / 8) + r.val, hj⟩ k) := fun k => by
    show xN (xarr m c) p.val k.val * wN (warr m c) (⟨128 * (t.val / 8) + r.val, hj⟩ : Fin 1024).val k.val = _
    rw [xN_of_lt, wN_of_lt]
  have ea : ∀ k : Fin 1024, absTerm m c p (128 * (t.val / 8) + r.val) k.val
      = eabs (xarr m c (ix2 p k)) * eabs (warr m c (ix2 ⟨128 * (t.val / 8) + r.val, hj⟩ k)) := fun k => by
    show eabs (xN (xarr m c) p.val k.val) * eabs (wN (warr m c) (⟨128 * (t.val / 8) + r.val, hj⟩ : Fin 1024).val k.val) = _
    rw [xN_of_lt, wN_of_lt]
  simp only [ep, ea]
  rfl

end Cert.KernelIdeal.Accumulate

end
-- ==== Proof.Result.lean ====
/-
  The kernel's result array after the run is the specification of the two argument arrays.

  The output window's block at point t = 8·j + k is (all 128 rows, columns 128·j … 128·j + 127), written back only at
  k = 7, where it holds the specification at those indices (the invariant of the accumulators over all 1024 columns).
  Every index (b, col) of the [128, 1024] result lies in the block written back at the point 8·(col / 128) + 7, so the
  eight written blocks cover the array and it ends holding the specification everywhere.
-/
import proofs.«129374_j21912923144500_1_alg».proof.Proof.Accumulate

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Cert.Spec Cert.KernelIdeal.Accumulate
open Idealize.ShloMosaic.Pipeline (Dat)

variable (m : (ℓ : Loc nD τ sig) → Buf (Elt Ideal) ℓ) (ρ : Dev nD → PrngReg)

/-- At a point of the last reduction step the output block, element by element, is the specification read through
    the block's place in the array. -/
theorem block_eq (c : Dev nD) (t : Fin cfg0.N) (h7 : t.val % 8 = 7) (y : S128x128.Idx) :
    (outsAt0 m c t.val t.isLt).1 y = G (xarr m c) (warr m c) (((cfg0.win 2).blk t).view.emb y) := by
  obtain ⟨-, -, -, -, e4, e5⟩ := idx_facts t
  have hN : t.val < 64 := lt_of_lt_of_eq t.isLt N_0
  obtain ⟨p, r, rfl⟩ : ∃ (p r : Fin 128), y = ix2 p r := ⟨y 0, y 1, eq_ix2 y⟩
  have hj : 128 * (t.val / 8) + r.val < 1024 := by have := r.isLt; omega
  rw [block_value m c t h7 p r hj]
  refine congrArg (G (xarr m c) (warr m c)) (funext fun a => Fin.ext ?_)
  match a with
  | ⟨0, _⟩ => show p.val = win0_2.index t (0 : Fin 2) * 128 + 1 * p.val; omega
  | ⟨1, _⟩ => show 128 * (t.val / 8) + r.val = win0_2.index t (1 : Fin 2) * 128 + 1 * r.val; omega

/-- What a writing point writes back is its block of the specification. -/
theorem flushed_eq (c : Dev nD) (t : Fin cfg0.N) (hf : (cfg0.win 2).flush t = true) :
    (dats m 0 c).flushed 2 t = ((cfg0.win 2).blk t).view.read (Elt Ideal) (G (xarr m c) (warr m c)) := by
  have h7 := (flush0_2 t).mp hf
  rw [Value.flushed2]
  funext y
  exact block_eq m c t h7 y

/-- An index of the result is in point t's block iff each coordinate is in the block's range on its axis. -/
theorem mem_blk (t : Fin cfg0.N) (i : S128x1024.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v0).slice (win0_2.rect t)).set ↔ _
  rw [View.set_slice_whole, Rect.mem_set_unit]
  exact Iff.rfl

/-- The result array after the run. -/
theorem final (c : Dev nD) : (dats m 0 c).arrAt 2 cfg0.N = G (xarr m c) (warr m c) :=
  (dats m 0 c).arrAt_eq_of_cover 2 (G (xarr m c) (warr m c)) (flushed_eq m c) fun i => by
    have hi0 : (i 0).val < 128 := (i 0).isLt
    have hi1 : (i 1).val < 1024 := (i 1).isLt
    have hlt : 8 * ((i 1).val / 128) + 7 < cfg0.N := by rw [show cfg0.N = 64 from N_0]; omega
    have e4 : win0_2.index ⟨8 * ((i 1).val / 128) + 7, hlt⟩ (0 : Fin 2) = 0 := (idx_facts ⟨_, hlt⟩).2.2.2.2.1
    have e5 : win0_2.index ⟨8 * ((i 1).val / 128) + 7, hlt⟩ (1 : Fin 2) = (8 * ((i 1).val / 128) + 7) / 8 := (idx_facts ⟨_, hlt⟩).2.2.2.2.2
    refine ⟨⟨8 * ((i 1).val / 128) + 7, hlt⟩, (flush0_2 _).mpr (by show (8 * ((i 1).val / 128) + 7) % 8 = 7; omega), ?_⟩
    rw [mem_blk]
    intro a
    match a with
    | ⟨0, _⟩ =>
      show win0_2.index ⟨8 * ((i 1).val / 128) + 7, hlt⟩ (0 : Fin 2) * 128 ≤ (i 0).val ∧ (i 0).val < win0_2.index ⟨8 * ((i 1).val / 128) + 7, hlt⟩ (0 : Fin 2) * 128 + 128
      omega
    | ⟨1, _⟩ =>
      show win0_2.index ⟨8 * ((i 1).val / 128) + 7, hlt⟩ (1 : Fin 2) * 128 ≤ (i 1).val ∧ (i 1).val < win0_2.index ⟨8 * ((i 1).val / 128) + 7, hlt⟩ (1 : Fin 2) * 128 + 128
      omega

/-- The run: the result array at the specification, the arguments unchanged. -/
theorem run : θ_run defs (onTc (τ := τ) (main (F := Ideal))) ⟨m, fun _ => 0, ρ⟩ fun r => ∀ c : Dev nD,
      r.2.mem ((c : Thread nD τ).loc main_v0) = G (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefValue.lean ====
/-
  The reference's last stage, read index by index at the extended reals, is the specification: at (b, j)

      ∑ₖ x[b,k] · Wᵀ[k,j]  +  δ · ( maxₖ (|x|[b,k] · |W|ᵀ[k,j])  −  ∑ₖ |x|[b,k] · |W|ᵀ[k,j] ),

  the two matrix products as sums over the contracted axis, the maximum as the fold of max from −∞ over the middle
  axis of the broadcast product [b, k, j], each transpose read at the swapped index (Wᵀ[k,j] = W[j,k]), the absolute
  value max a (−a).
-/
import proofs.«129374_j21912923144500_1_alg».proof.Proof.Gen.ReferenceIdeal.Read
import proofs.«129374_j21912923144500_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec

/-- The maximum stage at (b, j): over the 1024 middle coordinates k of the product |x|[b,k] · |W|[j,k], from −∞. -/
theorem max_stage (x0 : (⟨S128x1024, .f32⟩ : BufTy).Contents (Elt Ideal)) (x1 : (⟨S1024x1024, .f32⟩ : BufTy).Contents (Elt Ideal))
    (b : Fin 128) (j : Fin 1024) (h : S128x1024x1024.Reduces [1] S128x1024) :
    val_main_v10 (F := Ideal) x0 x1 (ix2 b j)
      = Finset.univ.fold max (Ideal.ofBits .f32 0xFF800000#32) (fun k : Fin 1024 => eabs (x0 (ix2 b k)) * eabs (x1 (ix2 j k))) := by
  unfold val_main_v10
  rw [Host.reduce_eq_fold_single FloatOps.maximumf _ _ reducesTo_S128x1024x1024_S128x1024_d1 h h_S_]
  show Finset.fold max (Ideal.ofBits .f32 0xFF800000#32)
      (fun k : Fin 1024 => val_main_v9 (F := Ideal) x0 x1 (h.lift (ix2 b j) k)) (Finset.univ : Finset (Fin 1024)) = _
  refine congrArg (fun f => Finset.fold max (Ideal.ofBits .f32 0xFF800000#32) f (Finset.univ : Finset (Fin 1024))) (funext fun k => ?_)
  have hl : h.lift (ix2 b j) k = ix3 b k j := funext fun a => Fin.ext (by
    match a with
    | ⟨0, _⟩ => rfl
    | ⟨1, _⟩ => rfl
    | ⟨2, _⟩ => rfl)
  rw [hl, val_main_v9_apply, val_main_v7_apply, val_main_v4_apply, val_main_v0_apply, val_main_v8_apply, val_main_v6_apply,
    val_main_v5_apply, val_main_v1_apply]
  have e0 : idx_main_v4 (idx_main_v7 (ix3 b k j)) = ix2 b k := funext fun a => Fin.ext (by match a with | ⟨0, _⟩ => rfl | ⟨1, _⟩ => rfl)
  have e1 : idx_main_v5 (idx_main_v6 (idx_main_v8 (ix3 b k j))) = ix2 j k := funext fun a => Fin.ext (by match a with | ⟨0, _⟩ => rfl | ⟨1, _⟩ => rfl)
  rw [e0, e1]
  rfl

/-- The reference's result is the specification of its two arguments. -/
theorem reference_eq (x0 : (⟨S128x1024, .f32⟩ : BufTy).Contents (Elt Ideal)) (x1 : (⟨S1024x1024, .f32⟩ : BufTy).Contents (Elt Ideal)) :
    val_main_v16 (F := Ideal) x0 x1 = G x0 x1 := by
  funext i
  obtain ⟨b, j, rfl⟩ : ∃ (b : Fin 128) (j : Fin 1024), i = ix2 b j := ⟨i 0, i 1, eq_ix2 i⟩
  rw [val_main_v16_apply, val_main_v13_apply, val_main_v15_apply, val_main_v14_apply, val_main_cst_0_apply, val_main_v11_apply,
    max_stage x0 x1 b j (by decide), val_main_v3_apply]
  have e13l : ∀ k : Fin 1024, lidx_main_v13 (ix2 b j) k = ix2 b k := fun k => funext fun a => Fin.ext (by match a with | ⟨0, _⟩ => rfl | ⟨1, _⟩ => rfl)
  have e13r : ∀ k : Fin 1024, idx_main_v12 (ridx_main_v13 (ix2 b j) k) = ix2 j k := fun k => funext fun a => Fin.ext (by match a with | ⟨0, _⟩ => rfl | ⟨1, _⟩ => rfl)
  have e3l : ∀ k : Fin 1024, lidx_main_v3 (ix2 b j) k = ix2 b k := fun k => funext fun a => Fin.ext (by match a with | ⟨0, _⟩ => rfl | ⟨1, _⟩ => rfl)
  have e3r : ∀ k : Fin 1024, idx_main_v2 (ridx_main_v3 (ix2 b j) k) = ix2 j k := fun k => funext fun a => Fin.ext (by match a with | ⟨0, _⟩ => rfl | ⟨1, _⟩ => rfl)
  simp only [val_main_v12_apply, val_main_v0_apply, val_main_v2_apply, val_main_v1_apply, e13l, e13r, e3l, e3r]
  rfl

end Cert.ReferenceIdeal.RefValue

end
-- ==== Proof.lean ====
/-
  The kernel computes, for x : [128, 1024] and W : [1024, 1024],

      out[b, j] = ∑ₖ x[b,k] · W[j,k] + δ · ( maxₖ |x[b,k]| · |W[j,k]| − ∑ₖ |x[b,k]| · |W[j,k]| ),

  in 8 × 8 grid points: for each tile of 128 output columns it walks the 1024 reduction columns in eight tiles of 128,
  keeping three accumulators (the products' sum, the absolute products' sum, a running maximum started at 0), and
  writes the combination at the last tile. The reference computes the same expression with whole-array operations.
  Over the extended reals the two agree: a sum split into tiles is the same sum (addition is commutative and
  associative), the casts to bf16 are the identity, and a running maximum started at 0 equals the maximum taken from
  −∞ because every product of absolute values is at least 0. No finiteness of the inputs is used.

  The frames of the two kernel programs are the generated frame runs; the reference's frame is its generated run with
  the result dropped; the idealization rewrote nothing, so `preserves` is trivial.
-/
import proofs.«129374_j21912923144500_1_alg».proof.Defs
import proofs.«129374_j21912923144500_1_alg».proof.Proof.Gen.Kernel
import proofs.«129374_j21912923144500_1_alg».proof.Proof.Gen.Kernel.Skeleton
import proofs.«129374_j21912923144500_1_alg».proof.Proof.Gen.Kernel.Launch
import proofs.«129374_j21912923144500_1_alg».proof.Proof.Gen.Kernel.Points
import proofs.«129374_j21912923144500_1_alg».proof.Proof.Gen.Kernel.Frame
import proofs.«129374_j21912923144500_1_alg».proof.Proof.Gen.KernelIdeal
import proofs.«129374_j21912923144500_1_alg».proof.Proof.Gen.KernelIdeal.Skeleton
import proofs.«129374_j21912923144500_1_alg».proof.Proof.Gen.KernelIdeal.Launch
import proofs.«129374_j21912923144500_1_alg».proof.Proof.Gen.KernelIdeal.Points
import proofs.«129374_j21912923144500_1_alg».proof.Proof.Gen.KernelIdeal.Frame
import proofs.«129374_j21912923144500_1_alg».proof.Proof.Gen.ReferenceIdeal
import proofs.«129374_j21912923144500_1_alg».proof.Proof.Gen.KernelIdeal.Value
import proofs.«129374_j21912923144500_1_alg».proof.Proof.Gen.ReferenceIdeal.Run
import proofs.«129374_j21912923144500_1_alg».proof.Proof.Gen.ReferenceIdeal.Read
import proofs.«129374_j21912923144500_1_alg».proof.Proof.Gen.Pre_finite_inputs
import Idealize.ShloMosaic.Adequacy
import Idealize.ShloMosaic.Init
import proofs.«129374_j21912923144500_1_alg».proof.Proof.Result
import proofs.«129374_j21912923144500_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
